-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S8x64 : Shape := ⟨2, ![8, 64]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S2000000x8 .f32) (main_arg1 : FVec F S8x64 .f32) (main_arg2 : FVec F S8x64 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  main_v13
-- ==== Kernel.lean ====
abbrev S2000000x8 : Shape := ⟨2, ![2000000, 8]⟩
abbrev S8x64 : Shape := ⟨2, ![8, 64]⟩
abbrev S2000000x64 : Shape := ⟨2, ![2000000, 64]⟩
abbrev S25000x8 : Shape := ⟨2, ![25000, 8]⟩
abbrev S25000x64 : Shape := ⟨2, ![25000, 64]⟩
abbrev S64 : Shape := ⟨1, ![64]⟩
abbrev S1x64 : Shape := ⟨2, ![1, 64]⟩

abbrev nBuf : Space → Nat
  | .hbm => 4
  | .vmem => 6
  | .smem => 0
  | _ => 0

abbrev bufTy : (tb : Table) → Fin (tcTables nBuf tb) → BufTy
  | .hbm, ⟨0, _⟩ => ⟨S2000000x8, .f32⟩
  | .hbm, ⟨1, _⟩ => ⟨S8x64, .f32⟩
  | .hbm, ⟨2, _⟩ => ⟨S8x64, .f32⟩
  | .hbm, ⟨3, _⟩ => ⟨S2000000x64, .f32⟩
  | .local _ .vmem, ⟨0, _⟩ => ⟨S25000x8, .f32⟩
  | .local _ .vmem, ⟨1, _⟩ => ⟨S25000x8, .f32⟩
  | .local _ .vmem, ⟨2, _⟩ => ⟨S8x64, .f32⟩
  | .local _ .vmem, ⟨3, _⟩ => ⟨S8x64, .f32⟩
  | .local _ .vmem, ⟨4, _⟩ => ⟨S25000x64, .f32⟩
  | .local _ .vmem, ⟨5, _⟩ => ⟨S25000x64, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S25000x8_S25000x8_0_0 : ∀ a, (![0, 0] : Fin 2 → Nat) a + S25000x8.size a ≤ S25000x8.size a
  h_S25000x8 : 0 < S25000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  reduces_S8x64_S64 : S8x64.Reduces [0] S64
  shapeCasts_S64_S1x64 : S64.ShapeCasts S1x64
  broadcasts_S1x64_S25000x64 : S1x64.Broadcasts S25000x64
  inb_S25000x64_S25000x64_0_0 : ∀ a, (![0, 0] : Fin 2 → Nat) a + S25000x64.size a ≤ S25000x64.size a
  h_S25000x64 : 0 < S25000x64.numel
  dot_S25000x8_S8x64_S25000x64_1_0_0_1_n_n_wf : DotDims.WF S25000x8 S8x64 S25000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x8.size a ≤ S2000000x8.size a
  hwx0_0 : ∀ i : grid0.Coords, EltTy.bits .f32 = 32 ∨ (Rect.block (s := S2000000x8) S25000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S25000x64.size a ≤ S2000000x64.size a
  hwx0_3 : ∀ i : grid0.Coords, EltTy.bits .f32 = 32 ∨ (Rect.block (s := S2000000x64) S25000x64.size (cc0_transform_3 i) (hinb0_3 i)).WholeWords (EltTy.packing .f32)

variable [Facts₀]

def dot_S25000x8_S8x64_S25000x64_1_0_0_1_n_n : DotDims S25000x8 S8x64 S25000x64 where
  lhsContracting := [1]
  rhsContracting := [0]
  lhsNonContracting := [0]
  rhsNonContracting := [1]
  lhsBatch := []
  rhsBatch := []
  wf := dot_S25000x8_S8x64_S25000x64_1_0_0_1_n_n_wf

abbrev win0_0 : Pipeline.Window sig grid0 :=
  Pipeline.Window.ofSpec (Memref.whole main_arg0) S25000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S25000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S8x64 : Shape := ⟨2, ![8, 64]⟩
abbrev S2000000x64 : Shape := ⟨2, ![2000000, 64]⟩
abbrev S_ : Shape := ⟨0, ![]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S8x64, .f32⟩
  | .hbm, ⟨2, _⟩ => ⟨S8x64, .f32⟩
  | .hbm, ⟨3, _⟩ => ⟨S2000000x64, .f32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S2000000x64, .f32⟩
  | .hbm, ⟨8, _⟩ => ⟨S2000000x64, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S8x64_S64_d0 : S8x64.ReducesTo [0] S64
  h_S_ : 0 < S_.numel
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  dot_S2000000x8_S8x64_S2000000x64_1_0_0_1_n_n_wf : DotDims.WF S2000000x8 S8x64 S2000000x64 [1] [0] [0] [1] [] []

variable [Facts₀]

def dot_S2000000x8_S8x64_S2000000x64_1_0_0_1_n_n : DotDims S2000000x8 S8x64 S2000000x64 where
  lhsContracting := [1]
  rhsContracting := [0]
  lhsNonContracting := [0]
  rhsNonContracting := [1]
  lhsBatch := []
  rhsBatch := []
  wf := dot_S2000000x8_S8x64_S2000000x64_1_0_0_1_n_n_wf

class Facts : Prop extends Facts₀ where

variable [Facts]
-- ==== Proof.MessageSum.lean ====
/-
  The function both programs compute, on the extended reals. For a node `r` and a message channel `h`,

      message r h  =  Σ_{k<8} vs[r,k] · W[k,h]  +  Σ_{k<8} b[k,h] :

  the node's eight neighbour values weighted by the eight weight rows, plus the column sum of the eight bias rows. The
  kernel forms the first sum as a matrix product of a block of 25,000 nodes into a zero accumulator and the second as a
  reduction of the bias rows over their row axis; the reference forms them as a contraction of the whole node array and
  as a reduction from the initial value zero. Both are these two eight-term sums, so nothing beyond `0 + x = x` joins the
  two sides and no input needs to be finite.
-/
import Idealize.ShloMosaic.PureOps.Ideal
import Idealize.ShloMosaic.Lib.ValueIdx

noncomputable section

namespace Cert.MessageSum

open Idealize.ShloMosaic Idealize.ShloMosaic.ValueIdx

/-- The node array: 2,000,000 nodes, eight neighbour values each. -/
abbrev SNodes : Shape := ⟨2, ![2000000, 8]⟩
/-- The weight rows and the bias rows: eight rows of 64 channels. -/
abbrev SRows : Shape := ⟨2, ![8, 64]⟩
/-- The messages: one row of 64 channels per node. -/
abbrev SMsgs : Shape := ⟨2, ![2000000, 64]⟩

/-- The message of node `i 0` in channel `i 1`: the weighted sum of its neighbour values plus the summed biases. -/
def message (vs : SNodes.Idx → EReal) (W b : SRows.Idx → EReal) : SMsgs.Idx → EReal := fun i =>
  (∑ k : Fin 8, vs (ix2 (n0 := 2000000) (n1 := 8) (i 0) k) * W (ix2 (n0 := 8) (n1 := 64) k (i 1)))
    + ∑ k : Fin 8, b (ix2 (n0 := 8) (n1 := 64) k (i 1))

/-- The same, read at explicit coordinates. -/
theorem message_ix2 (vs : SNodes.Idx → EReal) (W b : SRows.Idx → EReal) (r : Fin 2000000) (h : Fin 64) :
    message vs W b (ix2 r h) = (∑ k : Fin 8, vs (ix2 r k) * W (ix2 k h)) + ∑ k : Fin 8, b (ix2 k h) := rfl

end Cert.MessageSum

end
-- ==== Proof.BlockMessage.lean ====
/-
  What the kernel body stores for one block of 25,000 nodes, read at a node `p` of the block and a channel `q`:

      Σ_{k<8} x[p,k] · w[k,q]  +  Σ_{k<8} β[k,q]

  where `x` is the block of node values, `w` the weight rows and `β` the bias rows. The first summand is the matrix
  product into a zero accumulator: on the extended reals the narrowing of both operands to sixteen bits is the identity,
  the accumulator contributes `0`, and the contraction runs over the one shared axis of extent 8. The second is the sum
  of the bias rows over their row axis (a 64-vector), given a leading unit axis and repeated down the 25,000 rows, so
  every row reads the same column sum.
-/
import proofs.«155405_j56581899157823_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockMessage

open Cert.KernelIdeal Cert.KernelIdeal.Gen Idealize.ShloMosaic Idealize.ShloMosaic.ValueIdx

/-! ## The operand indices of the block's matrix product -/

/-- The left operand's row is the output's row. -/
theorem lhs_axis0 (j : S25000x64.Idx) (κ : dot_S25000x8_S8x64_S25000x64_1_0_0_1_n_n.contr.Idx) :
    (dot_S25000x8_S8x64_S25000x64_1_0_0_1_n_n.lhsIdx j κ 0).val = (j 0).val := by
  unfold DotDims.lhsIdx
  rw [dif_neg (show ¬(0 : Fin S25000x8.rank) ∈ dot_S25000x8_S8x64_S25000x64_1_0_0_1_n_n.lhsBatch by decide), dif_pos (show (0 : Fin S25000x8.rank) ∈ dot_S25000x8_S8x64_S25000x64_1_0_0_1_n_n.lhsNonContracting by decide)]
  rfl
/-- The left operand's column is the contraction position. -/
theorem lhs_axis1 (j : S25000x64.Idx) (κ : dot_S25000x8_S8x64_S25000x64_1_0_0_1_n_n.contr.Idx) :
    (dot_S25000x8_S8x64_S25000x64_1_0_0_1_n_n.lhsIdx j κ 1).val = (κ ⟨0, by decide⟩).val :=
  dot_S25000x8_S8x64_S25000x64_1_0_0_1_n_n.lhsIdx_val_of_single rfl j κ
/-- The right operand's row is the contraction position. -/
theorem rhs_axis0 (j : S25000x64.Idx) (κ : dot_S25000x8_S8x64_S25000x64_1_0_0_1_n_n.contr.Idx) :
    (dot_S25000x8_S8x64_S25000x64_1_0_0_1_n_n.rhsIdx j κ 0).val = (κ ⟨0, by decide⟩).val :=
  dot_S25000x8_S8x64_S25000x64_1_0_0_1_n_n.rhsIdx_val_of_single rfl j κ
/-- The right operand's column is the output's column. -/
theorem rhs_axis1 (j : S25000x64.Idx) (κ : dot_S25000x8_S8x64_S25000x64_1_0_0_1_n_n.contr.Idx) :
    (dot_S25000x8_S8x64_S25000x64_1_0_0_1_n_n.rhsIdx j κ 1).val = (j 1).val := by
  unfold DotDims.rhsIdx
  rw [dif_neg (show ¬(1 : Fin S8x64.rank) ∈ dot_S25000x8_S8x64_S25000x64_1_0_0_1_n_n.rhsBatch by decide), dif_pos (show (1 : Fin S8x64.rank) ∈ dot_S25000x8_S8x64_S25000x64_1_0_0_1_n_n.rhsNonContracting by decide)]
  rfl

/-! ## The three operations that are not pointwise -/

/-- The block's matrix product into the zero accumulator, at node `p` and channel `q`: the eight products of the
    node's values with the channel's weights, summed. Narrowing an operand to sixteen bits changes no extended real. -/
theorem weighted_apply (hlt : FTy.bits .bf16 < FTy.bits .f32) (x : FVec Ideal S25000x8 .f32) (w : FVec Ideal S8x64 .f32)
    (p : Fin 25000) (q : Fin 64) :
    matmul dot_S25000x8_S8x64_S25000x64_1_0_0_1_n_n none (truncf .bf16 x hlt) (truncf .bf16 w hlt)
        (constant (F := Ideal) S25000x64 .f32 0x00000000#32) (ix2 p q)
      = ∑ k : Fin 8, x (ix2 p k) * w (ix2 k q) := by
  simp only [matmul]
  rw [Ideal.matmul_constant_zero_apply, ← Equiv.sum_comp (contrEquiv1 dot_S25000x8_S8x64_S25000x64_1_0_0_1_n_n 8 rfl rfl).symm]
  refine Finset.sum_congr rfl fun k _ => ?_
  have hk := contrEquiv1_symm_val dot_S25000x8_S8x64_S25000x64_1_0_0_1_n_n 8 rfl rfl k
  have el : dot_S25000x8_S8x64_S25000x64_1_0_0_1_n_n.lhsIdx (ix2 p q) ((contrEquiv1 dot_S25000x8_S8x64_S25000x64_1_0_0_1_n_n 8 rfl rfl).symm k) = ix2 p k := funext fun a => Fin.ext (by
    match a with
    | ⟨0, _⟩ => exact lhs_axis0 _ _
    | ⟨1, _⟩ => exact (lhs_axis1 _ _).trans hk)
  have er : dot_S25000x8_S8x64_S25000x64_1_0_0_1_n_n.rhsIdx (ix2 p q) ((contrEquiv1 dot_S25000x8_S8x64_S25000x64_1_0_0_1_n_n 8 rfl rfl).symm k) = ix2 k q := funext fun a => Fin.ext (by
    match a with
    | ⟨0, _⟩ => exact (rhs_axis0 _ _).trans hk
    | ⟨1, _⟩ => exact rhs_axis1 _ _)
  rw [el, er]
  rfl

/-- The bias rows summed over their row axis, at channel `q`: the eight biases of that channel. -/
theorem biasSum_apply (hr : S8x64.Reduces [0] S64) (hφ : FKind.Formats .f32)
    (hacc : (0x00000000#32 : BitVec (FTy.bits .f32)) = FKind.add.neutral .f32 hφ) (β : FVec Ideal S8x64 .f32) (q : Fin 64) :
    multiReduction .add [0] S64 β 0x00000000#32 hr hφ hacc (ix1 q) = ∑ k : Fin 8, β (ix2 k q) :=
  (Ideal.multiReduction_add_single β _ hr hφ hacc (ix1 q)).trans
    (Finset.sum_congr rfl fun k _ => congrArg β (funext fun a => Fin.ext (by
      match a with
      | ⟨0, _⟩ => rfl
      | ⟨1, _⟩ => rfl)))

/-- A 64-vector given a leading unit axis and repeated down the block's rows reads, at every node `p`, its entry `q`. -/
theorem rowRepeat_apply (hsc : S64.ShapeCasts S1x64) (hb : S1x64.Broadcasts S25000x64) (v : FVec Ideal S64 .f32)
    (p : Fin 25000) (q : Fin 64) :
    broadcastTo S25000x64 (shapeCast S1x64 v hsc) hb (ix2 p q) = v (ix1 q) :=
  (broadcastTo_apply (shapeCast S1x64 v hsc) hb (ix2 p q) (ix2 (0 : Fin 1) q) (fun a => by
      match a with
      | ⟨0, _⟩ => show (0 : Nat) = if (1 : Nat) = 1 then 0 else _; rw [if_pos rfl]
      | ⟨1, _⟩ => show q.val = if (64 : Nat) = 1 then 0 else q.val; rw [if_neg (by decide)])).trans
    ((shapeCast_addUnit_apply ![64] v hsc (ix2 (0 : Fin 1) q)).trans
      (congrArg v (funext fun a => by match a with | ⟨0, _⟩ => rfl)))

/-! ## The stored value -/

/-- What the body stores, at node `p` of the block and channel `q`. -/
theorem stored_apply (x : Vec Ideal S25000x8 .f32) (w β : Vec Ideal S8x64 .f32) (p : Fin 25000) (q : Fin 64) :
    k0_pay1 (F := Ideal) x w β (ix2 p q) = (∑ k : Fin 8, x (ix2 p k) * w (ix2 k q)) + ∑ k : Fin 8, β (ix2 k q) := by
  unfold k0_pay1
  exact congrArg₂ (· + ·) (weighted_apply _ x w p q) ((rowRepeat_apply _ _ _ p q).trans (biasSum_apply _ _ _ β q))

/-- The same at any index of the block. -/
theorem stored_at (x : Vec Ideal S25000x8 .f32) (w β : Vec Ideal S8x64 .f32) (y : S25000x64.Idx) :
    k0_pay1 (F := Ideal) x w β y
      = (∑ k : Fin 8, x (ix2 (n0 := 25000) (n1 := 8) (y 0) k) * w (ix2 (n0 := 8) (n1 := 64) k (y 1)))
        + ∑ k : Fin 8, β (ix2 (n0 := 8) (n1 := 64) k (y 1)) := by
  obtain ⟨p, q, rfl⟩ : ∃ (p : Fin 25000) (q : Fin 64), y = ix2 p q := ⟨y 0, y 1, eq_ix2 y⟩
  exact stored_apply x w β p q

end Cert.KernelIdeal.BlockMessage

end
-- ==== Proof.ArrayMessage.lean ====
/-
  From the blocks to the whole message array. The grid has 80 points; point `t` stages nodes
  `25000·t … 25000·t + 24999` (block `t` of the node array along its first axis, the whole of its second), the whole
  weight rows and the whole bias rows, and writes back block `t` of the message array. A node's message depends only on
  that node's own eight values and on the shared rows, so what point `t` writes back is block `t` of ONE function of the
  three argument arrays, the message function. Node `r` lies in the block of point `r / 25000`, so the 80 blocks cover the
  array, and the array ends holding the message function everywhere.
-/
import proofs.«155405_j56581899157823_1_alg».proof.Proof.Gen.KernelIdeal.Value
import proofs.«155405_j56581899157823_1_alg».proof.Proof.BlockMessage
import proofs.«155405_j56581899157823_1_alg».proof.Proof.MessageSum

set_option maxRecDepth 16384

noncomputable section

namespace Cert.KernelIdeal.ArrayMessage

open Cert.KernelIdeal Cert.KernelIdeal.Gen Idealize.ShloMosaic Idealize.ShloMosaic.TcCoe Idealize.SL.Sem
open Idealize.ShloMosaic.ValueIdx Cert.MessageSum
open Idealize.ShloMosaic.Pipeline (Dat)

variable (m : (ℓ : Loc nD τ sig) → Buf (Elt Ideal) ℓ) (ρ : Dev nD → PrngReg)

/-- The body's loads and its store start at the origin of their buffers. -/
theorem originOffsets : (![0, 0] : Fin 2 → Nat) = fun _ => 0 := funext fun a => by fin_cases a <;> rfl

/-- The block indices, decided over the 80 points: the node block moves with the message block along the node axis;
    the weight rows and the bias rows are always their one whole block; the message block's index is at most 79 along
    the node axis and 0 along the channel axis. -/
theorem blockIndices : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) ≤ 79
    ∧ win0_3.index t (1 : Fin 2) = 0 :=
  (by decide +kernel : ∀ t : Fin grid0.N, _)

/-- Every one of the 80 node blocks is some point's. -/
theorem blockOnto : ∀ q : Fin 80, ∃ t : Fin cfg0.N, win0_3.index t = ![q.val, 0] :=
  (by decide +kernel : ∀ q : Fin 80, ∃ t : Fin grid0.N, win0_3.index t = ![q.val, 0])

/-- WHAT POINT `t` WRITES BACK is block `t` of the message function of the argument arrays. -/
theorem written_eq (c : Dev nD) (t : Fin cfg0.N) :
    (dats m 0 c).flushed 3 t
      = ((cfg0.win 3).blk t).view.read (Elt Ideal) (message (V m c main_arg0) (V m c main_arg1) (V m c main_arg2)) := by
  rw [Value.flushed3]
  unfold out0_3
  rw [View.canon_unit_zero originOffsets]
  simp only [View.ld_unit_zero (S := S25000x8) originOffsets, View.ld_unit_zero (S := S8x64) originOffsets]
  obtain ⟨e0, e1, e2, e3, e4, e5, e6, e7⟩ := blockIndices t
  funext j
  show k0_pay1 (F := Ideal) (iblk m c 0 t) (iblk m c 1 t) (iblk m c 2 t) j
    = message (V m c main_arg0) (V m c main_arg1) (V m c main_arg2) (((cfg0.win 3).blk t).view.emb j)
  refine (BlockMessage.stored_at (iblk m c 0 t) (iblk m c 1 t) (iblk m c 2 t) j).trans ?_
  -- node `j 0` of the block is node `25000·t + j 0` of the array; its value number `k` is read there
  have hnode : ∀ k : Fin 8, iblk m c 0 t (ix2 (n0 := 25000) (n1 := 8) (j 0) k)
      = V m c main_arg0 (ix2 (n0 := 2000000) (n1 := 8) ((((cfg0.win 3).blk t).view.emb j) 0) k) := fun k => by
    show V m c main_arg0 (((cfg0.win 0).blk t).view.emb (ix2 (n0 := 25000) (n1 := 8) (j 0) k)) = _
    refine congrArg (V m c main_arg0) (funext fun a => Fin.ext ?_)
    match a with
    | ⟨0, _⟩ => show win0_0.index t (0 : Fin 2) * 25000 + 1 * (j 0).val = win0_3.index t (0 : Fin 2) * 25000 + 1 * (j 0).val; omega
    | ⟨1, _⟩ => show win0_0.index t (1 : Fin 2) * 8 + 1 * k.val = k.val; omega
  -- the weight rows and the bias rows are staged whole: row `k`, channel `j 1` is read where it lies
  have hweight : ∀ k : Fin 8, iblk m c 1 t (ix2 (n0 := 8) (n1 := 64) k (j 1))
      = V m c main_arg1 (ix2 (n0 := 8) (n1 := 64) k ((((cfg0.win 3).blk t).view.emb j) 1)) := fun k => by
    show V m c main_arg1 (((cfg0.win 1).blk t).view.emb (ix2 (n0 := 8) (n1 := 64) k (j 1))) = _
    refine congrArg (V m c main_arg1) (funext fun a => Fin.ext ?_)
    match a with
    | ⟨0, _⟩ => show win0_1.index t (0 : Fin 2) * 8 + 1 * k.val = k.val; omega
    | ⟨1, _⟩ => show win0_1.index t (1 : Fin 2) * 64 + 1 * (j 1).val = win0_3.index t (1 : Fin 2) * 64 + 1 * (j 1).val; omega
  have hbias : ∀ k : Fin 8, iblk m c 2 t (ix2 (n0 := 8) (n1 := 64) k (j 1))
      = V m c main_arg2 (ix2 (n0 := 8) (n1 := 64) k ((((cfg0.win 3).blk t).view.emb j) 1)) := fun k => by
    show V m c main_arg2 (((cfg0.win 2).blk t).view.emb (ix2 (n0 := 8) (n1 := 64) k (j 1))) = _
    refine congrArg (V m c main_arg2) (funext fun a => Fin.ext ?_)
    match a with
    | ⟨0, _⟩ => show win0_2.index t (0 : Fin 2) * 8 + 1 * k.val = k.val; omega
    | ⟨1, _⟩ => show win0_2.index t (1 : Fin 2) * 64 + 1 * (j 1).val = win0_3.index t (1 : Fin 2) * 64 + 1 * (j 1).val; omega
  exact congrArg₂ (· + ·) (Finset.sum_congr rfl fun k _ => congrArg₂ (· * ·) (hnode k) (hweight k))
    (Finset.sum_congr rfl fun k _ => hbias k)

/-- An index of the message array is in point `t`'s block iff each coordinate is in the block's range on its axis. -/
theorem mem_block (t : Fin cfg0.N) (i : S2000000x64.Idx) :
    i ∈ ((cfg0.win 3).blk t).view.set ↔ ∀ a : Fin 2, win0_3.index t a * S25000x64.size a ≤ (i a).val
      ∧ (i a).val < win0_3.index t a * S25000x64.size a + S25000x64.size a := by
  show i ∈ ((View.whole main_v0).slice (win0_3.rect t)).set ↔ _
  rw [View.set_slice_whole, Rect.mem_set_unit]
  exact Iff.rfl

/-- THE COVER: node `r` in any channel lies in the block of point `r / 25000`, which is written back. -/
theorem covered (i : S2000000x64.Idx) :
    ∃ t : Fin cfg0.N, (cfg0.win 3).flush t = true ∧ i ∈ ((cfg0.win 3).blk t).view.set := by
  have hi0 : (i 0).val < 2000000 := (i 0).isLt
  have hi1 : (i 1).val < 64 := (i 1).isLt
  obtain ⟨t, ht⟩ := blockOnto ⟨(i 0).val / 25000, by omega⟩
  have q0 : win0_3.index t (0 : Fin 2) = (i 0).val / 25000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 25000 ≤ (i 0).val ∧ (i 0).val < win0_3.index t (0 : Fin 2) * 25000 + 25000; omega
  | ⟨1, _⟩ => show win0_3.index t (1 : Fin 2) * 64 ≤ (i 1).val ∧ (i 1).val < win0_3.index t (1 : Fin 2) * 64 + 64; omega

/-- THE ARRAY after the run is the message function of the argument arrays. -/
theorem finalArray (c : Dev nD) :
    (dats m 0 c).arrAt 3 cfg0.N
      = message (m ((c : Thread nD τ).loc main_arg0)) (m ((c : Thread nD τ).loc main_arg1)) (m ((c : Thread nD τ).loc main_arg2)) :=
  (dats m 0 c).arrAt_eq_of_cover 3 _ (fun t _ => written_eq m c t) (fun i => covered i)

/-- The kernel's run, read: the result array at the message function of the arguments, the arguments unchanged. -/
theorem run : θ_run defs (onTc (τ := τ) (main (F := Ideal))) ⟨m, fun _ => 0, ρ⟩ fun r => ∀ c : Dev nD,
      r.2.mem ((c : Thread nD τ).loc main_v0)
        = message (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalArray m c), (h c).2⟩) (Value.run_blocks m ρ)

end Cert.KernelIdeal.ArrayMessage

end
-- ==== Proof.RefMessage.lean ====
/-
  The reference's result is the message function: its contraction of the node array with the weight rows is, at node
  `r` and channel `h`, the sum over the eight neighbours of value times weight; its reduction of the bias rows from the
  initial value zero is `0 +` the column sum of channel `h`, which two broadcasts carry unchanged to every node; and its
  final addition joins the two.
-/
import proofs.«155405_j56581899157823_1_alg».proof.Proof.Gen.ReferenceIdeal.Read
import proofs.«155405_j56581899157823_1_alg».proof.Proof.MessageSum

noncomputable section

namespace Cert.ReferenceIdeal.RefMessage

open Cert.ReferenceIdeal Cert.ReferenceIdeal.Read Idealize.ShloMosaic Idealize.ShloMosaic.ValueIdx Cert.MessageSum

/-- The contraction reads node `i 0`'s value number `k` … -/
theorem nodeIdx_eq (i : S2000000x64.Idx) (k : Fin 8) : lidx_main_v0 i k = ix2 (n0 := 2000000) (n1 := 8) (i 0) k :=
  funext fun a => Fin.ext (by match a with | ⟨0, _⟩ => rfl | ⟨1, _⟩ => rfl)
/-- … against weight row `k` in channel `i 1`. -/
theorem weightIdx_eq (i : S2000000x64.Idx) (k : Fin 8) : ridx_main_v0 i k = ix2 (n0 := 8) (n1 := 64) k (i 1) :=
  funext fun a => Fin.ext (by match a with | ⟨0, _⟩ => rfl | ⟨1, _⟩ => rfl)
/-- Through the two broadcasts, node `i 0` in channel `i 1` reads the reduction at channel `i 1`, whose term `k` is
    bias row `k` in that channel. -/
theorem biasIdx_eq (i : S2000000x64.Idx) (k : Fin 8) :
    idx_main_v1 (idx_main_v2 (idx_main_v3 i)) k = ix2 (n0 := 8) (n1 := 64) k (i 1) :=
  funext fun a => Fin.ext (by match a with | ⟨0, _⟩ => rfl | ⟨1, _⟩ => rfl)

/-- The reference's last stage is the message function of its three arguments. -/
theorem stage_eq_message (vs : (⟨S2000000x8, .f32⟩ : BufTy).Contents (Elt Ideal)) (W b : (⟨S8x64, .f32⟩ : BufTy).Contents (Elt Ideal)) :
    val_main_v4 (F := Ideal) vs W b = message vs W b := by
  funext i
  show _ = (∑ k : Fin 8, vs (ix2 (n0 := 2000000) (n1 := 8) (i 0) k) * W (ix2 (n0 := 8) (n1 := 64) k (i 1)))
    + ∑ k : Fin 8, b (ix2 (n0 := 8) (n1 := 64) k (i 1))
  rw [val_main_v4_apply, val_main_v0_apply, val_main_v3_apply, val_main_v2_apply, val_main_v1_apply, val_main_cst_apply]
  simp only [nodeIdx_eq, weightIdx_eq, biasIdx_eq, Ideal.addf_def, Ideal.ofBits_def, Ideal.ofBits_zero_f32, zero_add]

end Cert.ReferenceIdeal.RefMessage

end
-- ==== Proof.lean ====
/-
  Every node of a batch of 2,000,000 receives a message of 64 channels: its eight neighbour values weighted by eight
  weight rows, plus the sum of eight bias rows,

      message r h  =  Σ_{k<8} vs[r,k] · W[k,h]  +  Σ_{k<8} b[k,h].

  The kernel computes it 25,000 nodes at a time over a grid of 80 points, as a matrix product into a zero accumulator
  plus the bias rows' column sums repeated down the rows; the reference as one contraction of the whole node array plus
  the bias rows reduced from zero and broadcast to every node. On the extended reals both are the two eight-term sums
  above (Proof/MessageSum.lean); a node's message depends only on its own values and on the shared rows, so the 80 blocks
  the kernel writes back are the blocks of that one function and cover the array (Proof/ArrayMessage.lean over
  Proof/BlockMessage.lean), and the reference's stages compose to the same function (Proof/RefMessage.lean). No sum is
  rearranged across an infinity, so the finiteness of the inputs is not used.
  The idealization rewrote nothing, so the kernel's idealized text is its own, read on the extended reals.
-/
import proofs.«155405_j56581899157823_1_alg».proof.Defs
import proofs.«155405_j56581899157823_1_alg».proof.Proof.Gen.Kernel
import proofs.«155405_j56581899157823_1_alg».proof.Proof.Gen.Kernel.Skeleton
import proofs.«155405_j56581899157823_1_alg».proof.Proof.Gen.Kernel.Launch
import proofs.«155405_j56581899157823_1_alg».proof.Proof.Gen.Kernel.Points
import proofs.«155405_j56581899157823_1_alg».proof.Proof.Gen.Kernel.Frame
import proofs.«155405_j56581899157823_1_alg».proof.Proof.Gen.KernelIdeal
import proofs.«155405_j56581899157823_1_alg».proof.Proof.Gen.KernelIdeal.Skeleton
import proofs.«155405_j56581899157823_1_alg».proof.Proof.Gen.KernelIdeal.Launch
import proofs.«155405_j56581899157823_1_alg».proof.Proof.Gen.KernelIdeal.Points
import proofs.«155405_j56581899157823_1_alg».proof.Proof.Gen.KernelIdeal.Frame
import proofs.«155405_j56581899157823_1_alg».proof.Proof.Gen.ReferenceIdeal
import proofs.«155405_j56581899157823_1_alg».proof.Proof.Gen.Pre_finite_inputs
import proofs.«155405_j56581899157823_1_alg».proof.Proof.Gen.KernelIdeal.Value
import proofs.«155405_j56581899157823_1_alg».proof.Proof.Gen.ReferenceIdeal.Run
import proofs.«155405_j56581899157823_1_alg».proof.Proof.Gen.ReferenceIdeal.Read
import proofs.«155405_j56581899157823_1_alg».proof.Proof.MessageSum
import proofs.«155405_j56581899157823_1_alg».proof.Proof.BlockMessage
import proofs.«155405_j56581899157823_1_alg».proof.Proof.ArrayMessage
import proofs.«155405_j56581899157823_1_alg».proof.Proof.RefMessage
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of six host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the node values, the weight rows and the bias rows, both programs end with the message
    function of those three arrays in their result. -/
theorem algebraic : Cert.algebraic_KernelIdeal_ReferenceIdeal := by
  intro m ρ m' ρ' _ hagree
  refine ⟨fun c => Cert.MessageSum.message (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayMessage.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefMessage.stage_eq_message,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
